-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128x64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩
abbrev S50000x64 : Shape := ⟨2, ![50000, 64]⟩
abbrev S5000x64 : Shape := ⟨2, ![5000, 64]⟩
abbrev S850000x64 : Shape := ⟨2, ![850000, 64]⟩
abbrev S1x64 : Shape := ⟨2, ![1, 64]⟩

abbrev nBuf : Space → Nat
  | .hbm => 84
  | .vmem => 16
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S50000x128, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000x128, .f32⟩
  | .hbm, ⟨57, _⟩ => ⟨S850000x1, .f32⟩
  | .hbm, ⟨58, _⟩ => ⟨S850000x128, .f32⟩
  | .hbm, ⟨59, _⟩ => ⟨S850000x128, .f32⟩
  | .hbm, ⟨60, _⟩ => ⟨S_, .f32⟩
  | .hbm, ⟨61, _⟩ => ⟨S50000x128, .f32⟩
  | .hbm, ⟨62, _⟩ => ⟨S850000x1, .i32⟩
  | .hbm, ⟨63, _⟩ => ⟨S50000x128, .f32⟩
  | .hbm, ⟨64, _⟩ => ⟨S1x128, .f32⟩
  | .hbm, ⟨65, _⟩ => ⟨S50000x64, .f32⟩
  | .hbm, ⟨66, _⟩ => ⟨S_, .i32⟩
  | .hbm, ⟨67, _⟩ => ⟨S850000, .i32⟩
  | .hbm, ⟨68, _⟩ => ⟨S850000, .i1⟩
  | .hbm, ⟨69, _⟩ => ⟨S_, .i32⟩
  | .hbm, ⟨70, _⟩ => ⟨S850000, .i32⟩
  | .hbm, ⟨71, _⟩ => ⟨S850000, .i32⟩
  | .hbm, ⟨72, _⟩ => ⟨S850000, .i32⟩
  | .hbm, ⟨73, _⟩ => ⟨S850000x1, .i32⟩
  | .hbm, ⟨74, _⟩ => ⟨S850000x64, .f32⟩
  | .hbm, ⟨75, _⟩ => ⟨S850000x1, .f32⟩
  | .hbm, ⟨76, _⟩ => ⟨S850000x64, .f32⟩
  | .hbm, ⟨77, _⟩ => ⟨S850000x64, .f32⟩
  | .hbm, ⟨78, _⟩ => ⟨S_, .f32⟩
  | .hbm, ⟨79, _⟩ => ⟨S50000x64, .f32⟩
  | .hbm, ⟨80, _⟩ => ⟨S850000x1, .i32⟩
  | .hbm, ⟨81, _⟩ => ⟨S50000x64, .f32⟩
  | .hbm, ⟨82, _⟩ => ⟨S1x64, .f32⟩
  | .hbm, ⟨83, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S1x64, .f32⟩
  | .local _ .vmem, ⟨14, _⟩ => ⟨S5000x64, .f32⟩
  | .local _ .vmem, ⟨15, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .f32 = 32 ∨ (Rect.block (s := S50000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v59) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v60) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v61) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 90
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S50000x128, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000x128, .f32⟩
  | .hbm, ⟨57, _⟩ => ⟨S850000x1, .f32⟩
  | .hbm, ⟨58, _⟩ => ⟨S850000x128, .f32⟩
  | .hbm, ⟨59, _⟩ => ⟨S850000x128, .f32⟩
  | .hbm, ⟨60, _⟩ => ⟨S_, .f32⟩
  | .hbm, ⟨61, _⟩ => ⟨S50000x128, .f32⟩
  | .hbm, ⟨62, _⟩ => ⟨S850000x1, .i32⟩
  | .hbm, ⟨63, _⟩ => ⟨S50000x128, .f32⟩
  | .hbm, ⟨64, _⟩ => ⟨S1x128, .f32⟩
  | .hbm, ⟨65, _⟩ => ⟨S50000x128, .f32⟩
  | .hbm, ⟨66, _⟩ => ⟨S50000x128, .f32⟩
  | .hbm, ⟨67, _⟩ => ⟨S_, .f32⟩
  | .hbm, ⟨68, _⟩ => ⟨S50000x128, .f32⟩
  | .hbm, ⟨69, _⟩ => ⟨S50000x128, .f32⟩
  | .hbm, ⟨70, _⟩ => ⟨S50000x64, .f32⟩
  | .hbm, ⟨71, _⟩ => ⟨S_, .i32⟩
  | .hbm, ⟨72, _⟩ => ⟨S850000, .i32⟩
  | .hbm, ⟨73, _⟩ => ⟨S850000, .i1⟩
  | .hbm, ⟨74, _⟩ => ⟨S_, .i32⟩
  | .hbm, ⟨75, _⟩ => ⟨S850000, .i32⟩
  | .hbm, ⟨76, _⟩ => ⟨S850000, .i32⟩
  | .hbm, ⟨77, _⟩ => ⟨S850000, .i32⟩
  | .hbm, ⟨78, _⟩ => ⟨S850000x1, .i32⟩
  | .hbm, ⟨79, _⟩ => ⟨S850000x64, .f32⟩
  | .hbm, ⟨80, _⟩ => ⟨S850000x1, .f32⟩
  | .hbm, ⟨81, _⟩ => ⟨S850000x64, .f32⟩
  | .hbm, ⟨82, _⟩ => ⟨S850000x64, .f32⟩
  | .hbm, ⟨83, _⟩ => ⟨S_, .f32⟩
  | .hbm, ⟨84, _⟩ => ⟨S50000x64, .f32⟩
  | .hbm, ⟨85, _⟩ => ⟨S850000x1, .i32⟩
  | .hbm, ⟨86, _⟩ => ⟨S50000x64, .f32⟩
  | .hbm, ⟨87, _⟩ => ⟨S1x64, .f32⟩
  | .hbm, ⟨88, _⟩ => ⟨S50000x64, .f32⟩
  | .hbm, ⟨89, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call1_cst : Ref sig .tc := ⟨.hbm, 67, rfl⟩
abbrev main_call1_v0 : Ref sig .tc := ⟨.hbm, 68, rfl⟩
abbrev main_v48 : Ref sig .tc := ⟨.hbm, 69, rfl⟩
abbrev main_v49 : Ref sig .tc := ⟨.hbm, 70, rfl⟩
abbrev main_c_9 : Ref sig .tc := ⟨.hbm, 71, rfl⟩
abbrev main_v50 : Ref sig .tc := ⟨.hbm, 72, rfl⟩
abbrev main_v51 : Ref sig .tc := ⟨.hbm, 73, rfl⟩
abbrev main_c_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.Spec.lean ====
/-
  What the three dense stages of the two-layer graph convolution compute, element by element, on the extended reals.
  Layer 1's transform is the plain product `x · W1`: entry (r, c) is the sum over the 128 shared coordinates of
  `x[r, k] · W1[k, c]`. Layer 2's transform first adds the bias row to the aggregated features, clamps below at zero,
  and multiplies by `W2`: entry (r, c) is the sum over k of `max (a[r, k] + b[0, k]) 0 · W2[k, c]`. The last stage adds
  the second bias row to every row. The sparse aggregation between them is the same host computation in both programs
  and is never opened here.
-/
import Idealize.ShloMosaic.PureOps.Ideal
import Idealize.ShloMosaic.Lib.ValueIdx

noncomputable section

open scoped BigOperators

namespace Cert.Gcn

open Idealize.ShloMosaic Idealize.ShloMosaic.ValueIdx

/-- The row coordinate of an index of a 50000-row array, as a number below 50000. -/
abbrev row {c : Nat} (i : (⟨2, ![50000, c]⟩ : Shape).Idx) : Fin 50000 := ⟨(i 0).val, (i 0).isLt⟩
/-- The column coordinate of an index of an array with `c` columns, as a number below `c`. -/
abbrev col {r c : Nat} (i : (⟨2, ![r, c]⟩ : Shape).Idx) : Fin c := ⟨(i 1).val, (i 1).isLt⟩

/-- Layer 1's dense transform `x · W`: entry (r, c) is `∑ k, x[r, k] · W[k, c]`. -/
def denseFirst (x : FVec Ideal ⟨2, ![50000, 128]⟩ .f32) (w : FVec Ideal ⟨2, ![128, 128]⟩ .f32) :
    FVec Ideal ⟨2, ![50000, 128]⟩ .f32 :=
  fun i => ∑ k : Fin 128, x (ix2 (row i) k) * w (ix2 k (col i))

/-- Layer 2's dense transform of the biased, clamped features: entry (r, c) is
    `∑ k, max (a[r, k] + b[0, k]) 0 · W[k, c]` (the zero kept as the float word it is printed as). -/
def denseSecond (a : FVec Ideal ⟨2, ![50000, 128]⟩ .f32) (b : FVec Ideal ⟨2, ![1, 128]⟩ .f32)
    (w : FVec Ideal ⟨2, ![128, 64]⟩ .f32) : FVec Ideal ⟨2, ![50000, 64]⟩ .f32 :=
  fun i => ∑ k : Fin 128,
    max (a (ix2 (row i) k) + b (ix2 (0 : Fin 1) k)) (Ideal.ofBits .f32 0x00000000#32) * w (ix2 k (col i))

/-- The closing bias: entry (r, c) is `a[r, c] + b[0, c]`. -/
def addBias (a : FVec Ideal ⟨2, ![50000, 64]⟩ .f32) (b : FVec Ideal ⟨2, ![1, 64]⟩ .f32) :
    FVec Ideal ⟨2, ![50000, 64]⟩ .f32 :=
  fun i => a i + b (ix2 (0 : Fin 1) (col i))

end Cert.Gcn

end
-- ==== Proof.Region0.lean ====
/-
  The first region: ten grid points, point `t` taking rows 5000·t … 5000·t + 4999 of the node features and the whole
  128 × 128 weight, and writing back those rows of their product (the narrowing to a 16-bit format before the
  multiplication changes nothing on the extended reals, and the accumulator starts at the zero word). Here: the
  product's entry as a sum over the 128 shared coordinates; that what point `t` writes back is block `t` of the
  whole-array function `denseFirst`; that the ten blocks cover all 50000 rows; hence the array the region leaves.
-/
import proofs.«172053_j81406810129168_1_alg».proof.Proof.Gen.KernelIdeal.Frame
import proofs.«172053_j81406810129168_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.FirstDense

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The node features as the region finds them. -/
abbrev feat (c : Dev nD) : FVec Ideal S50000x128 .f32 := V c main_arg0
/-- The first weight as the region finds it. -/
abbrev wgt (c : Dev nD) : FVec Ideal S128x128 .f32 := V c main_arg2

theorem zeros : (![0, 0] : Fin 2 → Nat) = fun _ => 0 := funext fun a => by fin_cases a <;> rfl

/-! The block product's operand indices: the left operand is read at (row, k), the right at (k, column). -/

theorem lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- One point's body at row `p`, column `q` of its block: `∑ k, x0[p, k] · x1[k, q]`. -/
theorem body_apply (x0 : Vec Ideal S5000x128 .f32) (x1 : Vec Ideal S128x128 .f32) (p : Fin 5000) (q : Fin 128) :
    k0_pay1 x0 x1 (ix2 p q) = ∑ k : Fin 128, x0 (ix2 p k) * x1 (ix2 k q) := by
  unfold k0_pay1
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_0 _ _
    | ⟨1, _⟩ => exact (lhs_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_0 _ _).trans hk
    | ⟨1, _⟩ => exact rhs_1 _ _)
  rw [el, er]
  rfl

/-- The same as one function of the block index. -/
theorem body_fun (x0 : Vec Ideal S5000x128 .f32) (x1 : Vec Ideal S128x128 .f32) :
    k0_pay1 x0 x1 = fun j : S5000x128.Idx => ∑ k : Fin 128,
      x0 (ix2 (⟨(j 0).val, (j 0).isLt⟩ : Fin 5000) k) * x1 (ix2 k (⟨(j 1).val, (j 1).isLt⟩ : Fin 128)) := by
  funext j
  obtain ⟨p, q, rfl⟩ : ∃ (p : Fin 5000) (q : Fin 128), j = ix2 p q := ⟨j 0, j 1, eq_ix2 j⟩
  exact body_apply x0 x1 p q

/-- The printed index maps over the ten points: the feature window and the output window sit at block row `t`, the
    weight's window stays at its one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of `denseFirst` of the two arrays the region found. -/
theorem flushed_eq (c : Dev nD) (t : Fin cfg0.N) :
    (dat0 V c).flushed 2 t
      = ((cfg0.win 2).blk t).view.read (Elt Ideal) (Cert.Gcn.denseFirst (feat V c) (wgt V c)) := by
  show (cfg0.win 2).cut (grid0.coords t) ((dat0 V c).after 2 t) = _
  rw [after0_2]
  unfold out0_2
  rw [View.canon_unit_zero zeros]
  simp only [View.ld_unit_zero (S := S5000x128) zeros, View.ld_unit_zero (S := S128x128) zeros]
  obtain ⟨e0, e1, e2, e3, e4, e5⟩ := idx_facts t
  funext j
  refine (congrFun (body_fun (iblk0 V c 0 t) (iblk0 V c 1 t)) j).trans ?_
  show (∑ k : Fin 128, feat V c (((cfg0.win 0).blk t).view.emb (ix2 (⟨(j 0).val, (j 0).isLt⟩ : Fin 5000) k))
        * wgt V c (((cfg0.win 1).blk t).view.emb (ix2 k (⟨(j 1).val, (j 1).isLt⟩ : Fin 128))))
      = ∑ k : Fin 128, feat V c (ix2 (Cert.Gcn.row (((cfg0.win 2).blk t).view.emb j)) k)
        * wgt V c (ix2 k (Cert.Gcn.col (((cfg0.win 2).blk t).view.emb j)))
  refine Finset.sum_congr rfl fun k _ => ?_
  have h0 : ((cfg0.win 0).blk t).view.emb (ix2 (⟨(j 0).val, (j 0).isLt⟩ : Fin 5000) k)
      = ix2 (Cert.Gcn.row (((cfg0.win 2).blk t).view.emb j)) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have h1 : ((cfg0.win 1).blk t).view.emb (ix2 k (⟨(j 1).val, (j 1).isLt⟩ : Fin 128))
      = ix2 k (Cert.Gcn.col (((cfg0.win 2).blk t).view.emb j)) := by
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  rw [h0, h1]

/-- An index of the array is in point `t`'s block iff each coordinate is in the block's range on its axis. -/
theorem mem_blk (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v31).slice (win0_2.rect t)).set ↔ _
  rw [View.set_slice_whole, Rect.mem_set_unit]
  exact Iff.rfl

/-- Row `r` lies in the block of point `r / 5000`: the ten blocks cover the array. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : grid0.N = 10 := N_0
  obtain ⟨t, ht⟩ : ∃ t : Fin cfg0.N, t.val = (i 0).val / 5000 :=
    ⟨⟨(i 0).val / 5000, by show (i 0).val / 5000 < grid0.N; rw [hN]; omega⟩, rfl⟩
  refine ⟨t, flush0_2 t, ?_⟩
  rw [mem_blk]
  obtain ⟨e0, e1, e2, e3, e4, e5⟩ := idx_facts t
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 128 ≤ (i 1).val ∧ (i 1).val < win0_2.index t (1 : Fin 2) * 128 + 128
    omega

/-- The array the region leaves: `denseFirst` of the node features and the first weight as the region found them. -/
theorem final (c : Dev nD) :
    (dat0 V c).arrAt 2 cfg0.N = Cert.Gcn.denseFirst (feat V c) (wgt V c) :=
  (dat0 V c).arrAt_eq_of_cover 2 _ (fun t _ => flushed_eq V c t) cover

end Cert.KernelIdeal.FirstDense

end
-- ==== Proof.Region1.lean ====
/-
  The middle region: ten grid points, point `t` taking rows 5000·t … 5000·t + 4999 of the aggregated layer-1 features,
  the one bias row and the whole 128 × 64 weight; the body adds the bias row to every row, clamps below at zero, and
  multiplies by the weight (the narrowing before the multiplication changes nothing on the extended reals, and the
  accumulator starts at the zero word). Here: the body's entry as a sum over the 128 shared coordinates; that what point
  `t` writes back is block `t` of the whole-array function `denseSecond`; that the ten blocks cover all 50000 rows;
  hence the array the region leaves.
-/
import proofs.«172053_j81406810129168_1_alg».proof.Proof.Gen.KernelIdeal.Frame
import proofs.«172053_j81406810129168_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.SecondDense

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The aggregated layer-1 features as the region finds them. -/
abbrev feat (c : Dev nD) : FVec Ideal S50000x128 .f32 := V c main_v44
/-- The first bias, as the one-row array the region finds. -/
abbrev bias (c : Dev nD) : FVec Ideal S1x128 .f32 := V c main_v45
/-- The second weight as the region finds it. -/
abbrev wgt (c : Dev nD) : FVec Ideal S128x64 .f32 := V c main_arg4

theorem zeros : (![0, 0] : Fin 2 → Nat) = fun _ => 0 := funext fun a => by fin_cases a <;> rfl

/-! The block product's operand indices: the left operand is read at (row, k), the right at (k, column). -/

theorem lhs_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhs_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhs_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- One point's body at row `p`, column `q` of its block: `∑ k, max (x0[p, k] + x1[0, k]) 0 · x2[k, q]`. -/
theorem body_apply (x0 : Vec Ideal S5000x128 .f32) (x1 : Vec Ideal S1x128 .f32) (x2 : Vec Ideal S128x64 .f32)
    (p : Fin 5000) (q : Fin 64) :
    k1_pay1 x0 x1 x2 (ix2 p q)
      = ∑ k : Fin 128, max (x0 (ix2 p k) + x1 (ix2 (0 : Fin 1) k)) (Ideal.ofBits .f32 0x00000000#32) * x2 (ix2 k q) := by
  unfold k1_pay1
  simp only [matmul]
  rw [Ideal.matmul_constant_zero_apply, ← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q) ((contrEquiv1 dot_S5000x128_S128x64_S5000x64_1_0_0_1_n_n 128 rfl rfl).symm k) = ix2 p k := funext fun a => Fin.ext (by
    match a with
    | ⟨0, _⟩ => exact lhs_0 _ _
    | ⟨1, _⟩ => exact (lhs_1 _ _).trans hk)
  have er : dot_S5000x128_S128x64_S5000x64_1_0_0_1_n_n.rhsIdx (ix2 p q) ((contrEquiv1 dot_S5000x128_S128x64_S5000x64_1_0_0_1_n_n 128 rfl rfl).symm k) = ix2 k q := funext fun a => Fin.ext (by
    match a with
    | ⟨0, _⟩ => exact (rhs_0 _ _).trans hk
    | ⟨1, _⟩ => exact rhs_1 _ _)
  rw [el, er, shapeCast_self, shapeCast_self]
  have hb : broadcastTo S5000x128 x1 broadcasts_S1x128_S5000x128 (ix2 p k) = x1 (ix2 (0 : Fin 1) k) :=
    broadcastTo_apply x1 broadcasts_S1x128_S5000x128 (ix2 p k) (ix2 (0 : Fin 1) k)
      (fun a => by match a with | ⟨0, _⟩ => rfl | ⟨1, _⟩ => rfl)
  show max (x0 (ix2 p k) + broadcastTo S5000x128 x1 broadcasts_S1x128_S5000x128 (ix2 p k)) (Ideal.ofBits .f32 0x00000000#32)
      * x2 (ix2 k q) = _
  rw [hb]

/-- The same as one function of the block index. -/
theorem body_fun (x0 : Vec Ideal S5000x128 .f32) (x1 : Vec Ideal S1x128 .f32) (x2 : Vec Ideal S128x64 .f32) :
    k1_pay1 x0 x1 x2 = fun j : S5000x64.Idx => ∑ k : Fin 128,
      max (x0 (ix2 (⟨(j 0).val, (j 0).isLt⟩ : Fin 5000) k) + x1 (ix2 (0 : Fin 1) k)) (Ideal.ofBits .f32 0x00000000#32)
        * x2 (ix2 k (⟨(j 1).val, (j 1).isLt⟩ : Fin 64)) := by
  funext j
  obtain ⟨p, q, rfl⟩ : ∃ (p : Fin 5000) (q : Fin 64), j = ix2 p q := ⟨j 0, j 1, eq_ix2 j⟩
  exact body_apply x0 x1 x2 p q

/-- The printed index maps over the ten points: the feature window and the output window sit at block row `t`, the
    bias row's and the weight's windows stay at their one block. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of `denseSecond` of the three arrays the region found. -/
theorem flushed_eq (c : Dev nD) (t : Fin cfg1.N) :
    (dat1 V c).flushed 3 t
      = ((cfg1.win 3).blk t).view.read (Elt Ideal) (Cert.Gcn.denseSecond (feat V c) (bias V c) (wgt V c)) := by
  show (cfg1.win 3).cut (grid1.coords t) ((dat1 V c).after 3 t) = _
  rw [after1_3]
  unfold out1_3
  rw [View.canon_unit_zero zeros]
  simp only [View.ld_unit_zero (S := S5000x128) zeros, View.ld_unit_zero (S := S1x128) zeros, View.ld_unit_zero (S := S128x64) zeros]
  obtain ⟨e0, e1, e2, e3, e4, e5, e6, e7⟩ := idx_facts t
  funext j
  refine (congrFun (body_fun (iblk1 V c 0 t) (iblk1 V c 1 t) (iblk1 V c 2 t)) j).trans ?_
  show (∑ k : Fin 128, max (feat V c (((cfg1.win 0).blk t).view.emb (ix2 (⟨(j 0).val, (j 0).isLt⟩ : Fin 5000) k))
          + bias V c (((cfg1.win 1).blk t).view.emb (ix2 (0 : Fin 1) k))) (Ideal.ofBits .f32 0x00000000#32)
        * wgt V c (((cfg1.win 2).blk t).view.emb (ix2 k (⟨(j 1).val, (j 1).isLt⟩ : Fin 64))))
      = ∑ k : Fin 128, max (feat V c (ix2 (Cert.Gcn.row (((cfg1.win 3).blk t).view.emb j)) k)
          + bias V c (ix2 (0 : Fin 1) k)) (Ideal.ofBits .f32 0x00000000#32)
        * wgt V c (ix2 k (Cert.Gcn.col (((cfg1.win 3).blk t).view.emb j)))
  refine Finset.sum_congr rfl fun k _ => ?_
  have h0 : ((cfg1.win 0).blk t).view.emb (ix2 (⟨(j 0).val, (j 0).isLt⟩ : Fin 5000) k)
      = ix2 (Cert.Gcn.row (((cfg1.win 3).blk t).view.emb j)) k := by
    funext a; apply Fin.ext
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 128 + 1 * k.val = k.val; omega
  have h1 : ((cfg1.win 1).blk t).view.emb (ix2 (0 : Fin 1) k) = ix2 (0 : Fin 1) k := by
    funext a; apply Fin.ext
    match a with
    | ⟨0, _⟩ => show win1_1.index t (0 : Fin 2) * 1 + 1 * 0 = 0; omega
    | ⟨1, _⟩ => show win1_1.index t (1 : Fin 2) * 128 + 1 * k.val = k.val; omega
  have h2 : ((cfg1.win 2).blk t).view.emb (ix2 k (⟨(j 1).val, (j 1).isLt⟩ : Fin 64))
      = ix2 k (Cert.Gcn.col (((cfg1.win 3).blk t).view.emb j)) := by
    funext a; apply Fin.ext
    match a with
    | ⟨0, _⟩ => show win1_2.index t (0 : Fin 2) * 128 + 1 * k.val = k.val; omega
    | ⟨1, _⟩ => show win1_2.index t (1 : Fin 2) * 64 + 1 * (j 1).val = win1_3.index t (1 : Fin 2) * 64 + 1 * (j 1).val; omega
  rw [h0, h1, h2]

/-- An index of the array is in point `t`'s block iff each coordinate is in the block's range on its axis. -/
theorem mem_blk (t : Fin cfg1.N) (i : S50000x64.Idx) :
    i ∈ ((cfg1.win 3).blk t).view.set ↔ ∀ a : Fin 2, win1_3.index t a * S5000x64.size a ≤ (i a).val
      ∧ (i a).val < win1_3.index t a * S5000x64.size a + S5000x64.size a := by
  show i ∈ ((View.whole main_v46).slice (win1_3.rect t)).set ↔ _
  rw [View.set_slice_whole, Rect.mem_set_unit]
  exact Iff.rfl

/-- Row `r` lies in the block of point `r / 5000`: the ten blocks cover the array. -/
theorem cover (i : S50000x64.Idx) :
    ∃ t : Fin cfg1.N, (cfg1.win 3).flush t = true ∧ i ∈ ((cfg1.win 3).blk t).view.set := by
  have hi0 : (i 0).val < 50000 := (i 0).isLt
  have hi1 : (i 1).val < 64 := (i 1).isLt
  have hN : grid1.N = 10 := N_1
  obtain ⟨t, ht⟩ : ∃ t : Fin cfg1.N, t.val = (i 0).val / 5000 :=
    ⟨⟨(i 0).val / 5000, by show (i 0).val / 5000 < grid1.N; rw [hN]; omega⟩, rfl⟩
  refine ⟨t, flush1_3 t, ?_⟩
  rw [mem_blk]
  obtain ⟨e0, e1, e2, e3, e4, e5, e6, e7⟩ := idx_facts t
  intro a
  match a with
  | ⟨0, _⟩ =>
    show win1_3.index t (0 : Fin 2) * 5000 ≤ (i 0).val ∧ (i 0).val < win1_3.index t (0 : Fin 2) * 5000 + 5000
    omega
  | ⟨1, _⟩ =>
    show win1_3.index t (1 : Fin 2) * 64 ≤ (i 1).val ∧ (i 1).val < win1_3.index t (1 : Fin 2) * 64 + 64
    omega

/-- The array the region leaves: `denseSecond` of the aggregated features, the bias row and the second weight as the
    region found them. -/
theorem final (c : Dev nD) :
    (dat1 V c).arrAt 3 cfg1.N = Cert.Gcn.denseSecond (feat V c) (bias V c) (wgt V c) :=
  (dat1 V c).arrAt_eq_of_cover 3 _ (fun t _ => flushed_eq V c t) cover

end Cert.KernelIdeal.SecondDense

end
-- ==== Proof.Region2.lean ====
/-
  The closing region: ten grid points, point `t` taking rows 5000·t … 5000·t + 4999 of the aggregated layer-2 features
  and the one bias row, and writing back those rows with the bias added. Here: what one point's body computes at an
  element of its block; that what point `t` writes back is block `t` of the whole-array function `addBias`; that the
  ten blocks cover all 50000 rows; hence the array the region leaves is `addBias` of the arrays it found.
-/
import proofs.«172053_j81406810129168_1_alg».proof.Proof.Gen.KernelIdeal.Frame
import proofs.«172053_j81406810129168_1_alg».proof.Proof.Spec
import Idealize.ShloMosaic.Lib.Pipeline.Value
import Idealize.ShloMosaic.Lib.ValueIdx

set_option maxRecDepth 16384

noncomputable section

namespace Cert.KernelIdeal.BiasRegion

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The aggregated layer-2 features as the region finds them. -/
abbrev feat (c : Dev nD) : FVec Ideal S50000x64 .f32 := V c main_v59
/-- The second bias, as the one-row array the region finds. -/
abbrev bias (c : Dev nD) : FVec Ideal S1x64 .f32 := V c main_v60

theorem zeros : (![0, 0] : Fin 2 → Nat) = fun _ => 0 := funext fun a => by fin_cases a <;> rfl

/-- One point's body at row `p`, column `q` of its block: the loaded element plus the bias row's entry at `q`. -/
theorem body_apply (x0 : Vec Ideal S5000x64 .f32) (x1 : Vec Ideal S1x64 .f32) (p : Fin 5000) (q : Fin 64) :
    k2_pay1 x0 x1 (ix2 p q) = x0 (ix2 p q) + x1 (ix2 (0 : Fin 1) q) := by
  unfold k2_pay1
  rw [shapeCast_self, shapeCast_self]
  refine congrArg (x0 (ix2 p q) + ·) ?_
  exact broadcastTo_apply x1 broadcasts_S1x64_S5000x64 (ix2 p q) (ix2 (0 : Fin 1) q)
    (fun a => by match a with | ⟨0, _⟩ => rfl | ⟨1, _⟩ => rfl)

/-- The same as one function of the block index. -/
theorem body_fun (x0 : Vec Ideal S5000x64 .f32) (x1 : Vec Ideal S1x64 .f32) :
    k2_pay1 x0 x1 = fun j : S5000x64.Idx => x0 j + x1 (ix2 (0 : Fin 1) (⟨(j 1).val, (j 1).isLt⟩ : Fin 64)) := by
  funext j
  obtain ⟨p, q, rfl⟩ : ∃ (p : Fin 5000) (q : Fin 64), j = ix2 p q := ⟨j 0, j 1, eq_ix2 j⟩
  exact body_apply x0 x1 p q

/-- The printed index maps over the ten points: the feature window and the output window sit at block row `t`, the
    bias row's window stays at its one block. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of `addBias` of the two arrays the region found. -/
theorem flushed_eq (c : Dev nD) (t : Fin cfg2.N) :
    (dat2 V c).flushed 2 t
      = ((cfg2.win 2).blk t).view.read (Elt Ideal) (Cert.Gcn.addBias (feat V c) (bias V c)) := by
  show (cfg2.win 2).cut (grid2.coords t) ((dat2 V c).after 2 t) = _
  rw [after2_2]
  unfold out2_2
  rw [View.canon_unit_zero zeros]
  simp only [View.ld_unit_zero (S := S5000x64) zeros, View.ld_unit_zero (S := S1x64) zeros]
  obtain ⟨e0, e1, e2, e3, e4, e5⟩ := idx_facts t
  funext j
  refine (congrFun (body_fun (iblk2 V c 0 t) (iblk2 V c 1 t)) j).trans ?_
  show feat V c (((cfg2.win 0).blk t).view.emb j)
        + bias V c (((cfg2.win 1).blk t).view.emb (ix2 (0 : Fin 1) (⟨(j 1).val, (j 1).isLt⟩ : Fin 64)))
      = feat V c (((cfg2.win 2).blk t).view.emb j)
        + bias V c (ix2 (0 : Fin 1) (Cert.Gcn.col (((cfg2.win 2).blk t).view.emb j)))
  have h0 : ((cfg2.win 0).blk t).view.emb j = ((cfg2.win 2).blk t).view.emb j := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 64 + 1 * (j 1).val = win2_2.index t (1 : Fin 2) * 64 + 1 * (j 1).val; omega
  have h1 : ((cfg2.win 1).blk t).view.emb (ix2 (0 : Fin 1) (⟨(j 1).val, (j 1).isLt⟩ : Fin 64))
      = ix2 (0 : Fin 1) (Cert.Gcn.col (((cfg2.win 2).blk t).view.emb j)) := by
    funext a; apply Fin.ext
    match a with
    | ⟨0, _⟩ => show win2_1.index t (0 : Fin 2) * 1 + 1 * 0 = 0; omega
    | ⟨1, _⟩ => show win2_1.index t (1 : Fin 2) * 64 + 1 * (j 1).val = win2_2.index t (1 : Fin 2) * 64 + 1 * (j 1).val; omega
  rw [h0, h1]

/-- An index of the array is in point `t`'s block iff each coordinate is in the block's range on its axis. -/
theorem mem_blk (t : Fin cfg2.N) (i : S50000x64.Idx) :
    i ∈ ((cfg2.win 2).blk t).view.set ↔ ∀ a : Fin 2, win2_2.index t a * S5000x64.size a ≤ (i a).val
      ∧ (i a).val < win2_2.index t a * S5000x64.size a + S5000x64.size a := by
  show i ∈ ((View.whole main_v61).slice (win2_2.rect t)).set ↔ _
  rw [View.set_slice_whole, Rect.mem_set_unit]
  exact Iff.rfl

/-- Row `r` lies in the block of point `r / 5000`: the ten blocks cover the array. -/
theorem cover (i : S50000x64.Idx) :
    ∃ t : Fin cfg2.N, (cfg2.win 2).flush t = true ∧ i ∈ ((cfg2.win 2).blk t).view.set := by
  have hi0 : (i 0).val < 50000 := (i 0).isLt
  have hi1 : (i 1).val < 64 := (i 1).isLt
  have hN : grid2.N = 10 := N_2
  obtain ⟨t, ht⟩ : ∃ t : Fin cfg2.N, t.val = (i 0).val / 5000 :=
    ⟨⟨(i 0).val / 5000, by show (i 0).val / 5000 < grid2.N; rw [hN]; omega⟩, rfl⟩
  refine ⟨t, flush2_2 t, ?_⟩
  rw [mem_blk]
  obtain ⟨e0, e1, e2, e3, e4, e5⟩ := idx_facts t
  intro a
  match a with
  | ⟨0, _⟩ =>
    show win2_2.index t (0 : Fin 2) * 5000 ≤ (i 0).val ∧ (i 0).val < win2_2.index t (0 : Fin 2) * 5000 + 5000
    omega
  | ⟨1, _⟩ =>
    show win2_2.index t (1 : Fin 2) * 64 ≤ (i 1).val ∧ (i 1).val < win2_2.index t (1 : Fin 2) * 64 + 64
    omega

/-- The array the region leaves: `addBias` of the aggregated features and the bias row as the region found them. -/
theorem final (c : Dev nD) :
    (dat2 V c).arrAt 2 cfg2.N = Cert.Gcn.addBias (feat V c) (bias V c) :=
  (dat2 V c).arrAt_eq_of_cover 2 _ (fun t _ => flushed_eq V c t) cover

end Cert.KernelIdeal.BiasRegion

end
-- ==== Proof.RefValue.lean ====
/-
  The reference's three dense stages are the same element-by-element functions the kernel's regions compute. Layer 1's
  host product read at an index is the sum over the 128 shared coordinates; layer 2's product is taken of the biased,
  clamped features, whose entry at (r, k) is `max (a[r, k] + b1[k]) 0`; the closing stage adds `b2[c]` at (r, c). The
  kernel hands each bias to its region as a one-row array: it enters here as any one-row array whose entry at (0, k) is
  the bias vector's entry at k.
-/
import proofs.«172053_j81406810129168_1_alg».proof.Proof.RefRead
import proofs.«172053_j81406810129168_1_alg».proof.Proof.Spec

noncomputable section

namespace Cert.ReferenceIdeal.Bridge

open Cert.ReferenceIdeal Cert.ReferenceIdeal.ReadP Idealize.ShloMosaic Idealize.ShloMosaic.TcCoe
open Idealize.ShloMosaic.ValueIdx

/-- Layer 1's host product is `denseFirst`. -/
theorem first_eq (x0 : (⟨S50000x128, .f32⟩ : BufTy).Contents (Elt Ideal)) (x2 : (⟨S128x128, .f32⟩ : BufTy).Contents (Elt Ideal)) :
    val_main_v31 (F := Ideal) x0 x2 = Cert.Gcn.denseFirst x0 x2 := by
  funext i
  rw [val_main_v31_apply]
  unfold Cert.Gcn.denseFirst
  refine Finset.sum_congr rfl fun k _ => ?_
  have el : lidx_main_v31 i k = ix2 (Cert.Gcn.row i) k := funext fun a => by match a with | ⟨0, _⟩ => rfl | ⟨1, _⟩ => rfl
  have er : ridx_main_v31 i k = ix2 k (Cert.Gcn.col i) := funext fun a => by match a with | ⟨0, _⟩ => rfl | ⟨1, _⟩ => rfl
  rw [el, er]

/-- Layer 2's host product of the biased, clamped features is `denseSecond` of the aggregated features, the bias as
    a one-row array, and the weight. -/
theorem second_eq (x0 : (⟨S50000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal))
    (x4 : (⟨S128x64, .f32⟩ : BufTy).Contents (Elt Ideal)) (b : FVec Ideal S1x128 .f32)
    (hb : ∀ k : Fin 128, b (ix2 (0 : Fin 1) k) = x3 (ix1 k)) :
    val_main_v49 (F := Ideal) x0 x1 x2 x3 x4 = Cert.Gcn.denseSecond (val_main_v44 (F := Ideal) x0 x1 x2) b x4 := by
  funext i
  rw [val_main_v49_apply]
  unfold Cert.Gcn.denseSecond
  refine Finset.sum_congr rfl fun k _ => ?_
  have el : lidx_main_v49 i k = ix2 (Cert.Gcn.row i) k := funext fun a => by match a with | ⟨0, _⟩ => rfl | ⟨1, _⟩ => rfl
  have er : ridx_main_v49 i k = ix2 k (Cert.Gcn.col i) := funext fun a => by match a with | ⟨0, _⟩ => rfl | ⟨1, _⟩ => rfl
  have e3 : idx_main_v45 (idx_main_v46 (ix2 (Cert.Gcn.row i) k)) = ix1 k := funext fun a => by match a with | ⟨0, _⟩ => rfl
  rw [el, er, val_main_v48_apply, val_main_v47_apply, val_main_v46_apply, val_main_v45_apply, val_main_call1_v0_apply,
    val_main_call1_cst_apply, e3, hb k]
  rfl

/-- The closing host addition of the broadcast bias is `addBias` of the aggregated features and the bias as a one-row
    array. -/
theorem last_eq (x0 : (⟨S50000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal))
    (x4 : (⟨S128x64, .f32⟩ : BufTy).Contents (Elt Ideal)) (x5 : (⟨S64, .f32⟩ : BufTy).Contents (Elt Ideal))
    (b : FVec Ideal S1x64 .f32) (hb : ∀ q : Fin 64, b (ix2 (0 : Fin 1) q) = x5 (ix1 q)) :
    val_main_v65 (F := Ideal) x0 x1 x2 x3 x4 x5 = Cert.Gcn.addBias (val_main_v62 (F := Ideal) x0 x1 x2 x3 x4) b := by
  funext i
  have e5 : idx_main_v63 (idx_main_v64 i) = ix1 (Cert.Gcn.col i) := funext fun a => by match a with | ⟨0, _⟩ => rfl
  rw [val_main_v65_apply, val_main_v64_apply, val_main_v63_apply, e5]
  unfold Cert.Gcn.addBias
  rw [hb (Cert.Gcn.col i)]
  rfl

end Cert.ReferenceIdeal.Bridge

end
-- ==== Proof.HostStages.lean ====
/-
  The kernel program's five host stretches, each read over ANY contents `L` of the buffers it starts from: a buffer the
  stretch computes is the reference's stage of the same operation as soon as the buffers it reads are the reference's
  stages, because the two programs spell these stretches with the same operations in the same order — the source and
  target vectors with the self loops appended, the ones, the degree by a scatter-add, its sign test and inverse square
  root, the select between them, the two gathers and the products that make the per-edge coefficient, then around each
  dense stage the gather of source rows, the scaling by the coefficient and the scatter-add into target rows. A buffer
  the stretch does not write keeps its contents. The two biases are reshaped to one-row arrays, whose entry at (0, k) is
  the vector's entry at k.
-/
import proofs.«172053_j81406810129168_1_alg».proof.Proof.Gen.KernelIdeal.Launch
import proofs.«172053_j81406810129168_1_alg».proof.Proof.RefRead
import Idealize.ShloMosaic.Lib.StableHlo.Run
import Idealize.ShloMosaic.Lib.Pipeline.Value
import Idealize.ShloMosaic.Lib.ValueIdx

set_option maxRecDepth 16384

noncomputable section

namespace Cert.KernelIdeal.HostStages

open Cert.KernelIdeal Cert.KernelIdeal.Gen Idealize.ShloMosaic Idealize.ShloMosaic.TcCoe Idealize.SL.Sem
open Idealize.ShloMosaic.StableHlo Idealize.ShloMosaic.ValueIdx
open Cert.ReferenceIdeal.ReadP (val_main_v3 val_main_v6 val_main_v7 val_main_v12 val_main_v13 val_main_cst_2 val_main_v14 val_main_v30
  val_main_v31 val_main_v44 val_main_v49 val_main_v62 val_main_v65)

variable (L : Valuation τ sig (Elt Ideal))

/-! ## The first stretch: from the edge list to the degree's sign and inverse root -/

set_option maxHeartbeats 20000000 in
theorem src (x1 : IVec S2x800000 32) (h1 : L (Proc.devRef .tc main_arg1) = x1) :
    StableHlo.after hostOps0 L (Proc.devRef .tc main_v3) = val_main_v3 (F := Ideal) x1 := by
  after_results; rw [h1]; rfl
set_option maxHeartbeats 20000000 in
theorem dst (x1 : IVec S2x800000 32) (h1 : L (Proc.devRef .tc main_arg1) = x1) :
    StableHlo.after hostOps0 L (Proc.devRef .tc main_v6) = val_main_v6 (F := Ideal) x1 := by
  after_results; rw [h1]; rfl
set_option maxHeartbeats 20000000 in
theorem pos (x1 : IVec S2x800000 32) (h1 : L (Proc.devRef .tc main_arg1) = x1) :
    StableHlo.after hostOps0 L (Proc.devRef .tc main_v12) = val_main_v12 (F := Ideal) x1 := by
  after_results; rw [h1]; rfl
set_option maxHeartbeats 20000000 in
theorem root (x1 : IVec S2x800000 32) (h1 : L (Proc.devRef .tc main_arg1) = x1) :
    StableHlo.after hostOps0 L (Proc.devRef .tc main_v13) = val_main_v13 (F := Ideal) x1 := by
  after_results; rw [h1]; rfl
set_option maxHeartbeats 20000000 in
theorem ones : StableHlo.after hostOps0 L (Proc.devRef .tc main_v7) = val_main_v7 (F := Ideal) := by
  after_results; rfl
set_option maxHeartbeats 20000000 in
theorem zero : StableHlo.after hostOps0 L (Proc.devRef .tc main_cst_2) = val_main_cst_2 (F := Ideal) := by
  after_results; rfl
theorem keep0_arg0 : StableHlo.after hostOps0 L (Proc.devRef .tc main_arg0) = L (Proc.devRef .tc main_arg0) := by after_results_simp
theorem keep0_arg2 : StableHlo.after hostOps0 L (Proc.devRef .tc main_arg2) = L (Proc.devRef .tc main_arg2) := by after_results_simp
theorem keep0_arg3 : StableHlo.after hostOps0 L (Proc.devRef .tc main_arg3) = L (Proc.devRef .tc main_arg3) := by after_results_simp
theorem keep0_arg4 : StableHlo.after hostOps0 L (Proc.devRef .tc main_arg4) = L (Proc.devRef .tc main_arg4) := by after_results_simp
theorem keep0_arg5 : StableHlo.after hostOps0 L (Proc.devRef .tc main_arg5) = L (Proc.devRef .tc main_arg5) := by after_results_simp

/-! ## The second stretch: the inverse root where the degree is positive, zero elsewhere -/

set_option maxHeartbeats 20000000 in
theorem dinv (x1 : IVec S2x800000 32) (h12 : L (Proc.devRef .tc main_v12) = val_main_v12 (F := Ideal) x1)
    (h13 : L (Proc.devRef .tc main_v13) = val_main_v13 (F := Ideal) x1)
    (hz : L (Proc.devRef .tc main_cst_2) = val_main_cst_2 (F := Ideal)) :
    StableHlo.after hostOps0_1 L (Proc.devRef .tc main_v14) = val_main_v14 (F := Ideal) x1 := by
  after_results_simp
  simp only [TRef.ofBuf, TRef.toBuf, cast_eq]
  rw [h12, h13, hz]; rfl
theorem keep01_v3 : StableHlo.after hostOps0_1 L (Proc.devRef .tc main_v3) = L (Proc.devRef .tc main_v3) := by after_results_simp
theorem keep01_v6 : StableHlo.after hostOps0_1 L (Proc.devRef .tc main_v6) = L (Proc.devRef .tc main_v6) := by after_results_simp
theorem keep01_v7 : StableHlo.after hostOps0_1 L (Proc.devRef .tc main_v7) = L (Proc.devRef .tc main_v7) := by after_results_simp
theorem keep01_arg0 : StableHlo.after hostOps0_1 L (Proc.devRef .tc main_arg0) = L (Proc.devRef .tc main_arg0) := by after_results_simp
theorem keep01_arg2 : StableHlo.after hostOps0_1 L (Proc.devRef .tc main_arg2) = L (Proc.devRef .tc main_arg2) := by after_results_simp
theorem keep01_arg3 : StableHlo.after hostOps0_1 L (Proc.devRef .tc main_arg3) = L (Proc.devRef .tc main_arg3) := by after_results_simp
theorem keep01_arg4 : StableHlo.after hostOps0_1 L (Proc.devRef .tc main_arg4) = L (Proc.devRef .tc main_arg4) := by after_results_simp
theorem keep01_arg5 : StableHlo.after hostOps0_1 L (Proc.devRef .tc main_arg5) = L (Proc.devRef .tc main_arg5) := by after_results_simp

/-! ## The third stretch: the per-edge coefficient -/

set_option maxHeartbeats 20000000 in
theorem coef (x1 : IVec S2x800000 32) (h3 : L (Proc.devRef .tc main_v3) = val_main_v3 (F := Ideal) x1)
    (h6 : L (Proc.devRef .tc main_v6) = val_main_v6 (F := Ideal) x1)
    (h7 : L (Proc.devRef .tc main_v7) = val_main_v7 (F := Ideal))
    (h14 : L (Proc.devRef .tc main_v14) = val_main_v14 (F := Ideal) x1) :
    StableHlo.after hostOps0_2 L (Proc.devRef .tc main_v30) = val_main_v30 (F := Ideal) x1 := by
  after_results_simp
  rw [h3, h6, h7, h14]; rfl
theorem keep02_v3 : StableHlo.after hostOps0_2 L (Proc.devRef .tc main_v3) = L (Proc.devRef .tc main_v3) := by after_results_simp
theorem keep02_v6 : StableHlo.after hostOps0_2 L (Proc.devRef .tc main_v6) = L (Proc.devRef .tc main_v6) := by after_results_simp
theorem keep02_arg0 : StableHlo.after hostOps0_2 L (Proc.devRef .tc main_arg0) = L (Proc.devRef .tc main_arg0) := by after_results_simp
theorem keep02_arg2 : StableHlo.after hostOps0_2 L (Proc.devRef .tc main_arg2) = L (Proc.devRef .tc main_arg2) := by after_results_simp
theorem keep02_arg3 : StableHlo.after hostOps0_2 L (Proc.devRef .tc main_arg3) = L (Proc.devRef .tc main_arg3) := by after_results_simp
theorem keep02_arg4 : StableHlo.after hostOps0_2 L (Proc.devRef .tc main_arg4) = L (Proc.devRef .tc main_arg4) := by after_results_simp
theorem keep02_arg5 : StableHlo.after hostOps0_2 L (Proc.devRef .tc main_arg5) = L (Proc.devRef .tc main_arg5) := by after_results_simp

/-! ## The stretch between the first two regions: layer 1's aggregation, and the first bias as a one-row array -/

set_option maxHeartbeats 20000000 in
theorem agg1 (x0 : FVec Ideal S50000x128 .f32) (x1 : IVec S2x800000 32) (x2 : FVec Ideal S128x128 .f32)
    (h3 : L (Proc.devRef .tc main_v3) = val_main_v3 (F := Ideal) x1)
    (h6 : L (Proc.devRef .tc main_v6) = val_main_v6 (F := Ideal) x1)
    (h30 : L (Proc.devRef .tc main_v30) = val_main_v30 (F := Ideal) x1)
    (h31 : L (Proc.devRef .tc main_v31) = val_main_v31 (F := Ideal) x0 x2) :
    StableHlo.after hostOps1 L (Proc.devRef .tc main_v44) = val_main_v44 (F := Ideal) x0 x1 x2 := by
  after_results_simp
  rw [h3, h6, h30, h31]; rfl
set_option maxHeartbeats 20000000 in
theorem bias1 (x3 : FVec Ideal S128 .f32) (h : L (Proc.devRef .tc main_arg3) = x3) (k : Fin 128) :
    (StableHlo.after hostOps1 L (Proc.devRef .tc main_v45) : FVec Ideal S1x128 .f32) (ix2 (0 : Fin 1) k) = x3 (ix1 k) := by
  after_results_simp
  show shapeCast S1x128 (L (Proc.devRef .tc main_arg3)) shapeCasts_S128_S1x128 (ix2 (0 : Fin 1) k) = _
  rw [h]
  refine shapeCast_apply x3 shapeCasts_S128_S1x128 (ix2 (0 : Fin 1) k) (ix1 k) ?_
  rw [Shape.rowMajor_val_one, Shape.rowMajor_val_two]
  show k.val = 0 * 128 + k.val
  omega
theorem keep1_v3 : StableHlo.after hostOps1 L (Proc.devRef .tc main_v3) = L (Proc.devRef .tc main_v3) := by after_results_simp
theorem keep1_v6 : StableHlo.after hostOps1 L (Proc.devRef .tc main_v6) = L (Proc.devRef .tc main_v6) := by after_results_simp
theorem keep1_v30 : StableHlo.after hostOps1 L (Proc.devRef .tc main_v30) = L (Proc.devRef .tc main_v30) := by after_results_simp
theorem keep1_arg4 : StableHlo.after hostOps1 L (Proc.devRef .tc main_arg4) = L (Proc.devRef .tc main_arg4) := by after_results_simp
theorem keep1_arg5 : StableHlo.after hostOps1 L (Proc.devRef .tc main_arg5) = L (Proc.devRef .tc main_arg5) := by after_results_simp

/-! ## The stretch between the last two regions: layer 2's aggregation, and the second bias as a one-row array -/

set_option maxHeartbeats 20000000 in
theorem agg2 (x0 : FVec Ideal S50000x128 .f32) (x1 : IVec S2x800000 32) (x2 : FVec Ideal S128x128 .f32) (x3 : FVec Ideal S128 .f32) (x4 : FVec Ideal S128x64 .f32)
    (h3 : L (Proc.devRef .tc main_v3) = val_main_v3 (F := Ideal) x1)
    (h6 : L (Proc.devRef .tc main_v6) = val_main_v6 (F := Ideal) x1)
    (h30 : L (Proc.devRef .tc main_v30) = val_main_v30 (F := Ideal) x1)
    (h46 : L (Proc.devRef .tc main_v46) = val_main_v49 (F := Ideal) x0 x1 x2 x3 x4) :
    StableHlo.after hostOps2 L (Proc.devRef .tc main_v59) = val_main_v62 (F := Ideal) x0 x1 x2 x3 x4 := by
  after_results_simp
  rw [h3, h6, h30, h46]; rfl
set_option maxHeartbeats 20000000 in
theorem bias2 (x5 : FVec Ideal S64 .f32) (h : L (Proc.devRef .tc main_arg5) = x5) (q : Fin 64) :
    (StableHlo.after hostOps2 L (Proc.devRef .tc main_v60) : FVec Ideal S1x64 .f32) (ix2 (0 : Fin 1) q) = x5 (ix1 q) := by
  after_results_simp
  show shapeCast S1x64 (L (Proc.devRef .tc main_arg5)) shapeCasts_S64_S1x64 (ix2 (0 : Fin 1) q) = _
  rw [h]
  refine shapeCast_apply x5 shapeCasts_S64_S1x64 (ix2 (0 : Fin 1) q) (ix1 q) ?_
  rw [Shape.rowMajor_val_one, Shape.rowMajor_val_two]
  show q.val = 0 * 64 + q.val
  omega

end Cert.KernelIdeal.HostStages

end
-- ==== Proof.Boundaries.lean ====
/-
  The kernel program's buffers at each boundary between its host stretches and its three regions, named by the
  reference's own stages. Walking the boundaries in order: after the three opening host stretches the source and target
  vectors and the per-edge coefficient are the reference's; the first region leaves layer 1's dense transform; the next
  stretch aggregates it and reshapes the first bias; the second region leaves layer 2's dense transform of the biased,
  clamped aggregate; the next stretch aggregates that and reshapes the second bias; the last region adds the bias. A
  buffer that a stretch or a region does not write is carried along unchanged. The result buffer ends at the reference's
  last stage of the six arguments.
-/
import proofs.«172053_j81406810129168_1_alg».proof.Proof.Gen.KernelIdeal.Frame
import proofs.«172053_j81406810129168_1_alg».proof.Proof.Region0
import proofs.«172053_j81406810129168_1_alg».proof.Proof.Region1
import proofs.«172053_j81406810129168_1_alg».proof.Proof.Region2
import proofs.«172053_j81406810129168_1_alg».proof.Proof.RefValue
import proofs.«172053_j81406810129168_1_alg».proof.Proof.HostStages

set_option maxRecDepth 16384

noncomputable section

namespace Cert.KernelIdeal.Boundaries

open Cert.KernelIdeal Cert.KernelIdeal.Gen Idealize.ShloMosaic Idealize.ShloMosaic.TcCoe Idealize.SL.Sem
open Idealize.ShloMosaic.StableHlo Idealize.ShloMosaic.ValueIdx
open Cert.ReferenceIdeal.ReadP (val_main_v3 val_main_v6 val_main_v7 val_main_v12 val_main_v13 val_main_cst_2 val_main_v14 val_main_v30
  val_main_v31 val_main_v44 val_main_v49 val_main_v62 val_main_v65)

variable (m : (ℓ : Loc nD τ sig) → Buf (Elt Ideal) ℓ) (ρ : Dev nD → PrngReg) (c : Dev nD)

/-! ## The six arguments, at their literal types -/

abbrev x0 : FVec Ideal S50000x128 .f32 := m ((c : Thread nD τ).loc main_arg0)
abbrev x1 : IVec S2x800000 32 := m ((c : Thread nD τ).loc main_arg1)
abbrev x2 : FVec Ideal S128x128 .f32 := m ((c : Thread nD τ).loc main_arg2)
abbrev x3 : FVec Ideal S128 .f32 := m ((c : Thread nD τ).loc main_arg3)
abbrev x4 : FVec Ideal S128x64 .f32 := m ((c : Thread nD τ).loc main_arg4)
abbrev x5 : FVec Ideal S64 .f32 := m ((c : Thread nD τ).loc main_arg5)

/-! ## After the first host stretch -/

theorem src1 : W1 m ρ c (Proc.devRef .tc main_v3) = val_main_v3 (F := Ideal) (x1 m c) := HostStages.src (W0 m ρ c) (x1 m c) rfl
theorem dst1 : W1 m ρ c (Proc.devRef .tc main_v6) = val_main_v6 (F := Ideal) (x1 m c) := HostStages.dst (W0 m ρ c) (x1 m c) rfl
theorem pos1 : W1 m ρ c (Proc.devRef .tc main_v12) = val_main_v12 (F := Ideal) (x1 m c) := HostStages.pos (W0 m ρ c) (x1 m c) rfl
theorem root1 : W1 m ρ c (Proc.devRef .tc main_v13) = val_main_v13 (F := Ideal) (x1 m c) := HostStages.root (W0 m ρ c) (x1 m c) rfl
theorem ones1 : W1 m ρ c (Proc.devRef .tc main_v7) = val_main_v7 (F := Ideal) := HostStages.ones (W0 m ρ c)
theorem zero1 : W1 m ρ c (Proc.devRef .tc main_cst_2) = val_main_cst_2 (F := Ideal) := HostStages.zero (W0 m ρ c)
theorem arg0_1 : W1 m ρ c (Proc.devRef .tc main_arg0) = x0 m c := HostStages.keep0_arg0 (W0 m ρ c)
theorem arg2_1 : W1 m ρ c (Proc.devRef .tc main_arg2) = x2 m c := HostStages.keep0_arg2 (W0 m ρ c)
theorem arg3_1 : W1 m ρ c (Proc.devRef .tc main_arg3) = x3 m c := HostStages.keep0_arg3 (W0 m ρ c)
theorem arg4_1 : W1 m ρ c (Proc.devRef .tc main_arg4) = x4 m c := HostStages.keep0_arg4 (W0 m ρ c)
theorem arg5_1 : W1 m ρ c (Proc.devRef .tc main_arg5) = x5 m c := HostStages.keep0_arg5 (W0 m ρ c)

/-! ## After the second host stretch -/

theorem dinv2 : W2 m ρ c (Proc.devRef .tc main_v14) = val_main_v14 (F := Ideal) (x1 m c) :=
  HostStages.dinv (W1 m ρ c) (x1 m c) (pos1 m ρ c) (root1 m ρ c) (zero1 m ρ c)
theorem src2 : W2 m ρ c (Proc.devRef .tc main_v3) = val_main_v3 (F := Ideal) (x1 m c) := (HostStages.keep01_v3 (W1 m ρ c)).trans (src1 m ρ c)
theorem dst2 : W2 m ρ c (Proc.devRef .tc main_v6) = val_main_v6 (F := Ideal) (x1 m c) := (HostStages.keep01_v6 (W1 m ρ c)).trans (dst1 m ρ c)
theorem ones2 : W2 m ρ c (Proc.devRef .tc main_v7) = val_main_v7 (F := Ideal) := (HostStages.keep01_v7 (W1 m ρ c)).trans (ones1 m ρ c)
theorem arg0_2 : W2 m ρ c (Proc.devRef .tc main_arg0) = x0 m c := (HostStages.keep01_arg0 (W1 m ρ c)).trans (arg0_1 m ρ c)
theorem arg2_2 : W2 m ρ c (Proc.devRef .tc main_arg2) = x2 m c := (HostStages.keep01_arg2 (W1 m ρ c)).trans (arg2_1 m ρ c)
theorem arg3_2 : W2 m ρ c (Proc.devRef .tc main_arg3) = x3 m c := (HostStages.keep01_arg3 (W1 m ρ c)).trans (arg3_1 m ρ c)
theorem arg4_2 : W2 m ρ c (Proc.devRef .tc main_arg4) = x4 m c := (HostStages.keep01_arg4 (W1 m ρ c)).trans (arg4_1 m ρ c)
theorem arg5_2 : W2 m ρ c (Proc.devRef .tc main_arg5) = x5 m c := (HostStages.keep01_arg5 (W1 m ρ c)).trans (arg5_1 m ρ c)

/-! ## After the third host stretch: the first region's entry -/

theorem coef3 : W3 m ρ c (Proc.devRef .tc main_v30) = val_main_v30 (F := Ideal) (x1 m c) :=
  HostStages.coef (W2 m ρ c) (x1 m c) (src2 m ρ c) (dst2 m ρ c) (ones2 m ρ c) (dinv2 m ρ c)
theorem src3 : W3 m ρ c (Proc.devRef .tc main_v3) = val_main_v3 (F := Ideal) (x1 m c) := (HostStages.keep02_v3 (W2 m ρ c)).trans (src2 m ρ c)
theorem dst3 : W3 m ρ c (Proc.devRef .tc main_v6) = val_main_v6 (F := Ideal) (x1 m c) := (HostStages.keep02_v6 (W2 m ρ c)).trans (dst2 m ρ c)
theorem arg0_3 : W3 m ρ c (Proc.devRef .tc main_arg0) = x0 m c := (HostStages.keep02_arg0 (W2 m ρ c)).trans (arg0_2 m ρ c)
theorem arg2_3 : W3 m ρ c (Proc.devRef .tc main_arg2) = x2 m c := (HostStages.keep02_arg2 (W2 m ρ c)).trans (arg2_2 m ρ c)
theorem arg3_3 : W3 m ρ c (Proc.devRef .tc main_arg3) = x3 m c := (HostStages.keep02_arg3 (W2 m ρ c)).trans (arg3_2 m ρ c)
theorem arg4_3 : W3 m ρ c (Proc.devRef .tc main_arg4) = x4 m c := (HostStages.keep02_arg4 (W2 m ρ c)).trans (arg4_2 m ρ c)
theorem arg5_3 : W3 m ρ c (Proc.devRef .tc main_arg5) = x5 m c := (HostStages.keep02_arg5 (W2 m ρ c)).trans (arg5_2 m ρ c)

/-! ## After the first region: layer 1's dense transform -/

theorem dense4 : W4 m ρ c (Proc.devRef .tc main_v31) = val_main_v31 (F := Ideal) (x0 m c) (x2 m c) := by
  refine (W4_arr m ρ c 2).trans ((FirstDense.final (V3 m ρ) c).trans ?_)
  show Cert.Gcn.denseFirst (W3 m ρ c (Proc.devRef .tc main_arg0)) (W3 m ρ c (Proc.devRef .tc main_arg2)) = _
  rw [arg0_3, arg2_3]
  exact (Cert.ReferenceIdeal.Bridge.first_eq _ _).symm
theorem src4 : W4 m ρ c (Proc.devRef .tc main_v3) = val_main_v3 (F := Ideal) (x1 m c) := (W4_of_ne m ρ c main_v3 (by decide)).trans (src3 m ρ c)
theorem dst4 : W4 m ρ c (Proc.devRef .tc main_v6) = val_main_v6 (F := Ideal) (x1 m c) := (W4_of_ne m ρ c main_v6 (by decide)).trans (dst3 m ρ c)
theorem coef4 : W4 m ρ c (Proc.devRef .tc main_v30) = val_main_v30 (F := Ideal) (x1 m c) := (W4_of_ne m ρ c main_v30 (by decide)).trans (coef3 m ρ c)
theorem arg3_4 : W4 m ρ c (Proc.devRef .tc main_arg3) = x3 m c := (W4_of_ne m ρ c main_arg3 (by decide)).trans (arg3_3 m ρ c)
theorem arg4_4 : W4 m ρ c (Proc.devRef .tc main_arg4) = x4 m c := (W4_of_ne m ρ c main_arg4 (by decide)).trans (arg4_3 m ρ c)
theorem arg5_4 : W4 m ρ c (Proc.devRef .tc main_arg5) = x5 m c := (W4_of_ne m ρ c main_arg5 (by decide)).trans (arg5_3 m ρ c)

/-! ## After the next host stretch: the second region's entry -/

theorem agg5 : W5 m ρ c (Proc.devRef .tc main_v44) = val_main_v44 (F := Ideal) (x0 m c) (x1 m c) (x2 m c) :=
  HostStages.agg1 (W4 m ρ c) (x0 m c) (x1 m c) (x2 m c) (src4 m ρ c) (dst4 m ρ c) (coef4 m ρ c) (dense4 m ρ c)
theorem bias5 (k : Fin 128) : (W5 m ρ c (Proc.devRef .tc main_v45) : FVec Ideal S1x128 .f32) (ix2 (0 : Fin 1) k) = x3 m c (ix1 k) :=
  HostStages.bias1 (W4 m ρ c) (x3 m c) (arg3_4 m ρ c) k
theorem src5 : W5 m ρ c (Proc.devRef .tc main_v3) = val_main_v3 (F := Ideal) (x1 m c) := (HostStages.keep1_v3 (W4 m ρ c)).trans (src4 m ρ c)
theorem dst5 : W5 m ρ c (Proc.devRef .tc main_v6) = val_main_v6 (F := Ideal) (x1 m c) := (HostStages.keep1_v6 (W4 m ρ c)).trans (dst4 m ρ c)
theorem coef5 : W5 m ρ c (Proc.devRef .tc main_v30) = val_main_v30 (F := Ideal) (x1 m c) := (HostStages.keep1_v30 (W4 m ρ c)).trans (coef4 m ρ c)
theorem arg4_5 : W5 m ρ c (Proc.devRef .tc main_arg4) = x4 m c := (HostStages.keep1_arg4 (W4 m ρ c)).trans (arg4_4 m ρ c)
theorem arg5_5 : W5 m ρ c (Proc.devRef .tc main_arg5) = x5 m c := (HostStages.keep1_arg5 (W4 m ρ c)).trans (arg5_4 m ρ c)

/-! ## After the second region: layer 2's dense transform -/

theorem dense6 : W6 m ρ c (Proc.devRef .tc main_v46) = val_main_v49 (F := Ideal) (x0 m c) (x1 m c) (x2 m c) (x3 m c) (x4 m c) := by
  refine (W6_arr m ρ c 3).trans ((SecondDense.final (V5 m ρ) c).trans ?_)
  show Cert.Gcn.denseSecond (W5 m ρ c (Proc.devRef .tc main_v44)) (W5 m ρ c (Proc.devRef .tc main_v45)) (W5 m ρ c (Proc.devRef .tc main_arg4)) = _
  rw [agg5, arg4_5]
  exact (Cert.ReferenceIdeal.Bridge.second_eq (x0 m c) (x1 m c) (x2 m c) (x3 m c) (x4 m c) _ (fun k => bias5 m ρ c k)).symm
theorem src6 : W6 m ρ c (Proc.devRef .tc main_v3) = val_main_v3 (F := Ideal) (x1 m c) := (W6_of_ne m ρ c main_v3 (by decide)).trans (src5 m ρ c)
theorem dst6 : W6 m ρ c (Proc.devRef .tc main_v6) = val_main_v6 (F := Ideal) (x1 m c) := (W6_of_ne m ρ c main_v6 (by decide)).trans (dst5 m ρ c)
theorem coef6 : W6 m ρ c (Proc.devRef .tc main_v30) = val_main_v30 (F := Ideal) (x1 m c) := (W6_of_ne m ρ c main_v30 (by decide)).trans (coef5 m ρ c)
theorem arg5_6 : W6 m ρ c (Proc.devRef .tc main_arg5) = x5 m c := (W6_of_ne m ρ c main_arg5 (by decide)).trans (arg5_5 m ρ c)

/-! ## After the last host stretch: the third region's entry -/

theorem agg7 : W7 m ρ c (Proc.devRef .tc main_v59) = val_main_v62 (F := Ideal) (x0 m c) (x1 m c) (x2 m c) (x3 m c) (x4 m c) :=
  HostStages.agg2 (W6 m ρ c) (x0 m c) (x1 m c) (x2 m c) (x3 m c) (x4 m c) (src6 m ρ c) (dst6 m ρ c) (coef6 m ρ c) (dense6 m ρ c)
theorem bias7 (q : Fin 64) : (W7 m ρ c (Proc.devRef .tc main_v60) : FVec Ideal S1x64 .f32) (ix2 (0 : Fin 1) q) = x5 m c (ix1 q) :=
  HostStages.bias2 (W6 m ρ c) (x5 m c) (arg5_6 m ρ c) q

/-! ## After the last region: the result -/

/-- The result buffer at the last boundary is the reference's last stage of the six arguments. -/
theorem result : W8 m ρ c (Proc.devRef .tc main_v61) = val_main_v65 (F := Ideal) (x0 m c) (x1 m c) (x2 m c) (x3 m c) (x4 m c) (x5 m c) := by
  refine (W8_arr m ρ c 2).trans ((BiasRegion.final (V7 m ρ) c).trans ?_)
  show Cert.Gcn.addBias (W7 m ρ c (Proc.devRef .tc main_v59)) (W7 m ρ c (Proc.devRef .tc main_v60)) = _
  rw [agg7]
  exact (Cert.ReferenceIdeal.Bridge.last_eq (x0 m c) (x1 m c) (x2 m c) (x3 m c) (x4 m c) (x5 m c) _ (fun q => bias7 m ρ c q)).symm

end Cert.KernelIdeal.Boundaries

end
-- ==== Proof.lean ====
/-
  A two-layer graph convolution over 50000 nodes and 800000 edges (self loops appended): each layer multiplies the node
  features by a weight, gathers the source rows, scales them by the symmetric normalisation coefficient
  `deg[src]^(-1/2) · deg[dst]^(-1/2)`, scatter-adds them into the target rows and adds a bias, with a clamp at zero
  between the layers. The kernel program computes the two products and the closing bias in three tiled regions of ten
  row blocks each (folding the first bias and the clamp into the second product) and leaves the gather, the scaling and
  the scatter-add to the same host operations the reference uses.

  On the extended reals the two programs compute the same array. A tiled product's entry is the same sum over the 128
  shared coordinates as the host's product (the narrowing to a 16-bit format is the identity there and the accumulator
  starts at zero); the second region's entry sums `max (a[r, k] + b1[k]) 0 · W2[k, c]`, which is the host product of the
  biased, clamped features; the third region adds `b2[c]`. Everything between is the same host computation applied to
  equal arrays, so the equality is carried through it stage by stage and never opened. No law of the extended reals
  beyond reading these sums is needed, so the finiteness of the inputs is not used.

  The three programs run: the two kernel programs by their launch over the segments of the main function, the reference
  by its line of host operations. The idealisation rewrote no operation.
-/
import proofs.«172053_j81406810129168_1_alg».proof.Defs
import proofs.«172053_j81406810129168_1_alg».proof.Proof.Gen.Kernel
import proofs.«172053_j81406810129168_1_alg».proof.Proof.Gen.Kernel.Frame
import proofs.«172053_j81406810129168_1_alg».proof.Proof.Gen.KernelIdeal
import proofs.«172053_j81406810129168_1_alg».proof.Proof.Gen.KernelIdeal.Frame
import proofs.«172053_j81406810129168_1_alg».proof.Proof.Gen.ReferenceIdeal
import proofs.«172053_j81406810129168_1_alg».proof.Proof.Gen.Pre_finite_inputs
import proofs.«172053_j81406810129168_1_alg».proof.Proof.KernelRun
import proofs.«172053_j81406810129168_1_alg».proof.Proof.Boundaries
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference is a line of host operations: it runs, and its run leaves the arguments as launched. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Both programs end with the reference's composed term of the arguments: the reference by its run, the kernel
    program because its result buffer at the last boundary is the reference's last stage of the same arguments. -/
theorem algebraic : Cert.algebraic_KernelIdeal_ReferenceIdeal := by
  intro m ρ m' ρ' _ hagree
  refine ⟨fun c => Cert.ReferenceIdeal.ValueP.res_main_v65 (F := Ideal) m' c, ?_,
    Cert.ReferenceIdeal.ValueP.run (F := Ideal) m' ρ'⟩
  refine (θ_run Cert.KernelIdeal.defs _ _).mono (fun r h c => ⟨(h c).1.trans ?_, (h c).2⟩)
    (Cert.KernelIdeal.NamedRun.run_named (F := Ideal) m ρ)
  show Cert.KernelIdeal.Gen.W8 m ρ c (Proc.devRef .tc Cert.KernelIdeal.main_v61)
    = Cert.ReferenceIdeal.ValueP.res_main_v65 (F := Ideal) m' c
  rw [Cert.ReferenceIdeal.ReadP.val_main_v65_eq, (hagree c).1, (hagree c).2.1, (hagree c).2.2.1, (hagree c).2.2.2.1,
    (hagree c).2.2.2.2.1, (hagree c).2.2.2.2.2]
  exact Cert.KernelIdeal.Boundaries.result m ρ c

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
